-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S6400000 : Shape := ⟨1, ![6400000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S6400000 : S_.BroadcastsInDim S6400000 (![] : Fin 0 → Fin S6400000.rank)
  reducesTo_S6400000_S_d0 : S6400000.ReducesTo [0] S_

variable [Facts]

def fn {F : FTy → Type} [FloatOps F] (main_arg0 : FVec F S100000 .f32) (main_arg1 : FVec F S6400000 .f32) (main_arg2 : IVec S6400000 32) (main_arg3 : IVec S6400000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S6400000 .f32 := Host.absf main_arg1
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  main_v8
-- ==== Kernel.lean ====
abbrev S100000 : Shape := ⟨1, ![100000]⟩
abbrev S6400000 : Shape := ⟨1, ![6400000]⟩
abbrev S_ : Shape := ⟨0, ![]⟩
abbrev S6400000x1 : Shape := ⟨2, ![6400000, 1]⟩
abbrev S50000x128 : Shape := ⟨2, ![50000, 128]⟩
abbrev S5000x128 : Shape := ⟨2, ![5000, 128]⟩

abbrev nBuf : Space → Nat
  | .hbm => 25
  | .vmem => 6
  | .smem => 0
  | _ => 0

abbrev bufTy : (tb : Table) → Fin (tcTables nBuf tb) → BufTy
  | .hbm, ⟨0, _⟩ => ⟨S100000, .f32⟩
  | .hbm, ⟨1, _⟩ => ⟨S6400000, .f32⟩
  | .hbm, ⟨2, _⟩ => ⟨S6400000, .i32⟩
  | .hbm, ⟨3, _⟩ => ⟨S6400000, .i32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S6400000, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S6400000, .f32⟩
  | .hbm, ⟨17, _⟩ => ⟨S_, .f32⟩
  | .hbm, ⟨18, _⟩ => ⟨S100000, .f32⟩
  | .hbm, ⟨19, _⟩ => ⟨S6400000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  bcast_S_S100000 : S_.BroadcastsInDim S100000 (![] : Fin 0 → Fin S100000.rank)
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v7) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S6400000 : Shape := ⟨1, ![6400000]⟩
abbrev S_ : Shape := ⟨0, ![]⟩
abbrev S6400000x1 : Shape := ⟨2, ![6400000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000, .f32⟩
  | .hbm, ⟨1, _⟩ => ⟨S6400000, .f32⟩
  | .hbm, ⟨2, _⟩ => ⟨S6400000, .i32⟩
  | .hbm, ⟨3, _⟩ => ⟨S6400000, .i32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S6400000, .f32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000, .f32⟩
  | .hbm, ⟨22, _⟩ => ⟨S6400000, .f32⟩
  | .hbm, ⟨23, _⟩ => ⟨S_, .f32⟩
  | .hbm, ⟨24, _⟩ => ⟨S6400000, .f32⟩
  | .hbm, ⟨25, _⟩ => ⟨S6400000, .f32⟩
  | .hbm, ⟨26, _⟩ => ⟨S6400000, .f32⟩
  | .hbm, ⟨27, _⟩ => ⟨S_, .f32⟩
  | .hbm, ⟨28, _⟩ => ⟨S6400000, .f32⟩
  | .hbm, ⟨29, _⟩ => ⟨S6400000, .f32⟩
  | .hbm, ⟨30, _⟩ => ⟨S6400000, .f32⟩
  | .hbm, ⟨31, _⟩ => ⟨S6400000, .f32⟩
  | .hbm, ⟨32, _⟩ => ⟨S6400000, .f32⟩
  | .hbm, ⟨33, _⟩ => ⟨S_, .f32⟩
  | .hbm, ⟨34, _⟩ => ⟨S6400000, .f32⟩
  | .hbm, ⟨35, _⟩ => ⟨S6400000, .f32⟩
  | .hbm, ⟨36, _⟩ => ⟨S_, .f32⟩
  | .hbm, ⟨37, _⟩ => ⟨S6400000, .f32⟩
  | .hbm, ⟨38, _⟩ => ⟨S6400000, .f32⟩
  | .hbm, ⟨39, _⟩ => ⟨S6400000, .f32⟩
  | .hbm, ⟨40, _⟩ => ⟨S6400000, .f32⟩
  | .hbm, ⟨41, _⟩ => ⟨S_, .f32⟩
  | .hbm, ⟨42, _⟩ => ⟨S6400000, .f32⟩
  | .hbm, ⟨43, _⟩ => ⟨S6400000, .f32⟩
  | .hbm, ⟨44, _⟩ => ⟨S6400000, .f32⟩
  | .hbm, ⟨45, _⟩ => ⟨S6400000, .f32⟩
  | .hbm, ⟨46, _⟩ => ⟨S6400000, .f32⟩
  | .hbm, ⟨47, _⟩ => ⟨S_, .f32⟩
  | .hbm, ⟨48, _⟩ => ⟨S6400000, .f32⟩
  | .hbm, ⟨49, _⟩ => ⟨S6400000, .f32⟩
  | .hbm, ⟨50, _⟩ => ⟨S6400000, .f32⟩
  | .hbm, ⟨51, _⟩ => ⟨S_, .f32⟩
  | .hbm, ⟨52, _⟩ => ⟨S6400000, .f32⟩
  | .hbm, ⟨53, _⟩ => ⟨S6400000, .i1⟩
  | .hbm, ⟨54, _⟩ => ⟨S_, .f32⟩
  | .hbm, ⟨55, _⟩ => ⟨S6400000, .f32⟩
  | .hbm, ⟨56, _⟩ => ⟨S6400000, .f32⟩
  | .hbm, ⟨57, _⟩ => ⟨S_, .f32⟩
  | .hbm, ⟨58, _⟩ => ⟨S6400000, .f32⟩
  | .hbm, ⟨59, _⟩ => ⟨S6400000, .f32⟩
  | .hbm, ⟨60, _⟩ => ⟨S_, .f32⟩
  | .hbm, ⟨61, _⟩ => ⟨S6400000, .f32⟩
  | .hbm, ⟨62, _⟩ => ⟨S6400000, .f32⟩
  | .hbm, ⟨63, _⟩ => ⟨S_, .f32⟩
  | .hbm, ⟨64, _⟩ => ⟨S6400000, .f32⟩
  | .hbm, ⟨65, _⟩ => ⟨S6400000, .f32⟩
  | .hbm, ⟨66, _⟩ => ⟨S6400000, .f32⟩
  | .hbm, ⟨67, _⟩ => ⟨S_, .f32⟩
  | .hbm, ⟨68, _⟩ => ⟨S6400000, .f32⟩
  | .hbm, ⟨69, _⟩ => ⟨S6400000, .f32⟩
  | .hbm, ⟨70, _⟩ => ⟨S_, .f32⟩
  | .hbm, ⟨71, _⟩ => ⟨S6400000, .f32⟩
  | .hbm, ⟨72, _⟩ => ⟨S6400000, .f32⟩
  | .hbm, ⟨73, _⟩ => ⟨S_, .f32⟩
  | .hbm, ⟨74, _⟩ => ⟨S6400000, .f32⟩
  | .hbm, ⟨75, _⟩ => ⟨S6400000, .f32⟩
  | .hbm, ⟨76, _⟩ => ⟨S6400000, .f32⟩
  | .hbm, ⟨77, _⟩ => ⟨S_, .f32⟩
  | .hbm, ⟨78, _⟩ => ⟨S6400000, .f32⟩
  | .hbm, ⟨79, _⟩ => ⟨S6400000, .f32⟩
  | .hbm, ⟨80, _⟩ => ⟨S_, .f32⟩
  | .hbm, ⟨81, _⟩ => ⟨S6400000, .f32⟩
  | .hbm, ⟨82, _⟩ => ⟨S6400000, .f32⟩
  | .hbm, ⟨83, _⟩ => ⟨S6400000, .f32⟩
  | .hbm, ⟨84, _⟩ => ⟨S6400000, .f32⟩
  | .hbm, ⟨85, _⟩ => ⟨S6400000, .f32⟩
  | .hbm, ⟨86, _⟩ => ⟨S6400000, .f32⟩
  | .hbm, ⟨87, _⟩ => ⟨S6400000, .f32⟩
  | .hbm, ⟨88, _⟩ => ⟨S_, .f32⟩
  | .hbm, ⟨89, _⟩ => ⟨S6400000, .f32⟩
  | .hbm, ⟨90, _⟩ => ⟨S6400000, .i1⟩
  | .hbm, ⟨91, _⟩ => ⟨S_, .f32⟩
  | .hbm, ⟨92, _⟩ => ⟨S6400000, .f32⟩
  | .hbm, ⟨93, _⟩ => ⟨S6400000, .f32⟩
  | .hbm, ⟨94, _⟩ => ⟨S_, .f32⟩
  | .hbm, ⟨95, _⟩ => ⟨S100000, .f32⟩
  | .hbm, ⟨96, _⟩ => ⟨S6400000x1, .i32⟩
  | .hbm, ⟨97, _⟩ => ⟨S100000, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_v67 : Ref sig .tc := ⟨.hbm, 93, rfl⟩
abbrev main_cst_20 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000 : S_.BroadcastsInDim S100000 (![] : Fin 0 → Fin S100000.rank)
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.PairTerm.lean ====
/-
  The pair term of the shielded-electrostatics energy, as two scalar functions on the extended reals.

  For one pair with distance `d` and partner charge `qj` the kernel computes
      K(d, qj) = [d ≤ 10] · qj · ( σ(d) · E_shd(d) + (1 − σ(d)) · E_ord(d) )
  with the switch σ(d) = [d < 2] · (1 − 6x⁵ + 15x⁴ − 10x³), x = d · ½, the ordinary term
  E_ord(d) = 1/d + d · c − ⅕ and the shielded term E_shd(d) = r + (t · r) · c − ⅕ where t = d² + 1,
  r = t^(−1/2), and `c` the constant the kernel names 1/100.  The reference computes, with the owning
  charge `qi` inside the sum,
      R(d, qi, qj) = [d ≤ 10] · ((k · qi) · qj) · ( σ'(d) · E'_shd(d) + (1 − σ'(d)) · E'_ord(d) )
  with x = d / 2, E'_ord(d) = 1/d + d/100 − ⅕ and E'_shd(d) = 1/√t + √t/100 − ⅕.

  For a finite distance the two brackets are one extended real: d/2 = d·½ and d/100 = d·(1/100) on every
  extended real, the powers of x differ by the order of the factors only, and for real t ≥ 1 one has
  1/√t = t^(−1/2) and √t = t · t^(−1/2).  Hence R(d, qi, qj) = (k · qi) · K(d, qj) by associativity alone.
  The only infinite intermediate value is 1/d at d = 0, and there its factor 1 − σ(0) is 0, so K(d, qj) is a
  real number whenever d and qj are.
-/
import Idealize.ShloMosaic.PureOps.Ideal

noncomputable section

namespace Cert.PairTerm

open Idealize.ShloMosaic

/-! ## The float words both programs spell -/

abbrev one : EReal := Ideal.ofBits .f32 0x3F800000#32
abbrev zero : EReal := Ideal.ofBits .f32 0x00000000#32
abbrev half : EReal := Ideal.ofBits .f32 0x3F000000#32
abbrev two : EReal := Ideal.ofBits .f32 0x40000000#32
abbrev six : EReal := Ideal.ofBits .f32 0x40C00000#32
abbrev ten : EReal := Ideal.ofBits .f32 0x41200000#32
abbrev fifteen : EReal := Ideal.ofBits .f32 0x41700000#32
abbrev hundred : EReal := Ideal.ofBits .f32 0x42C80000#32
/-- The word both programs spell for 2/10 (a binary fraction near ⅕; its value is never needed). -/
abbrev fifth : EReal := Ideal.ofBits .f32 0x3E4CCCCD#32
/-- The word both programs spell for half the Coulomb constant (its value is never needed). -/
abbrev ke : EReal := Ideal.ofBits .f32 0x40E664F3#32

/-! ## The kernel's pair term -/

/-- The switch polynomial 1 − 6x⁵ + 15x⁴ − 10x³ with the kernel's grouping of the powers. -/
def polyK (x : EReal) : EReal :=
  ((one - six * (((x * x) * (x * x)) * x)) + fifteen * ((x * x) * (x * x))) - ten * (((x * x)) * x)

/-- σ(d): the polynomial of x = d · ½ below the short-range cutoff 2, zero from there on. -/
def swOffK (d : EReal) : EReal := Scalar.select (Ideal.cmp .olt d two) (polyK (d * half)) zero

/-- E_ord(d) = 1/d + d · c − ⅕. -/
def eOrdK (c d : EReal) : EReal := (Ideal.div one d + d * c) - fifth

/-- E_shd(d) = r + (t · r) · c − ⅕ with t = d² + 1 and r = t^(−1/2). -/
def eShdK (c d : EReal) : EReal :=
  (Ideal.rsqrt (d * d + one) + ((d * d + one) * Ideal.rsqrt (d * d + one)) * c) - fifth

/-- The bracket σ · E_shd + (1 − σ) · E_ord. -/
def mixK (c d : EReal) : EReal := swOffK d * eShdK c d + (one - swOffK d) * eOrdK c d

/-- K(d, qj): the kernel's contribution of one pair, zero beyond the cutoff 10. -/
def pairK (c d qj : EReal) : EReal := Scalar.select (Ideal.cmp .ole d ten) (qj * mixK c d) zero

/-! ## The reference's pair term -/

/-- The same polynomial with the reference's grouping of the powers. -/
def polyR (x : EReal) : EReal :=
  ((one - six * (x * ((x * x) * (x * x)))) + fifteen * ((x * x) * (x * x))) - ten * ((x * x) * x)

def swOffR (d : EReal) : EReal := Scalar.select (Ideal.cmp .olt d two) (polyR (Ideal.div d two)) zero

/-- E'_ord(d) = 1/d + d/100 − ⅕. -/
def eOrdR (d : EReal) : EReal := (Ideal.div one d + Ideal.div d hundred) - fifth

/-- E'_shd(d) = 1/√t + √t/100 − ⅕ with t = d² + 1. -/
def eShdR (d : EReal) : EReal :=
  (Ideal.div one (Ideal.sqrt (d * d + one)) + Ideal.div (Ideal.sqrt (d * d + one)) hundred) - fifth

def mixR (d : EReal) : EReal := swOffR d * eShdR d + (one - swOffR d) * eOrdR d

/-- R(d, qi, qj): the reference's energy of one pair, zero beyond the cutoff 10. -/
def pairR (d qi qj : EReal) : EReal := Scalar.select (Ideal.cmp .ole d ten) (((ke * qi) * qj) * mixR d) zero

/-! ## The words' values -/

theorem one_val : one = ((1 : ℝ) : EReal) := by
  simp [Ideal.ofBits, Ideal.ieee, -EReal.coe_mul]; norm_num

theorem half_val : half = ((1 / 2 : ℝ) : EReal) := by
  simp [Ideal.ofBits, Ideal.ieee, -EReal.coe_mul]; norm_num

theorem two_val : two = ((2 : ℝ) : EReal) := by
  simp [Ideal.ofBits, Ideal.ieee, -EReal.coe_mul]; norm_num

theorem six_val : six = ((6 : ℝ) : EReal) := by
  simp [Ideal.ofBits, Ideal.ieee, -EReal.coe_mul]; norm_num

theorem ten_val : ten = ((10 : ℝ) : EReal) := by
  simp [Ideal.ofBits, Ideal.ieee, -EReal.coe_mul]; norm_num

theorem fifteen_val : fifteen = ((15 : ℝ) : EReal) := by
  simp [Ideal.ofBits, Ideal.ieee, -EReal.coe_mul]; norm_num

theorem hundred_val : hundred = ((100 : ℝ) : EReal) := by
  simp [Ideal.ofBits, Ideal.ieee, -EReal.coe_mul]; norm_num

/-- The word for ⅕ is some real number. -/
theorem fifth_real : ∃ f : ℝ, fifth = (f : EReal) := by
  simp [Ideal.ofBits, Ideal.ieee, -EReal.coe_mul]

/-! ## Division by the words 2 and 100, and the quantities under the root -/

/-- d / 2 = d · ½ on every extended real. -/
theorem div_two (d : EReal) : Ideal.div d two = d * half := by
  rw [two_val, half_val]; exact Ideal.div_coe (by norm_num) d

/-- d / 100 = d · (1/100) on every extended real. -/
theorem div_hundred (d : EReal) : Ideal.div d hundred = d * ((1 / 100 : ℝ) : EReal) := by
  rw [hundred_val]; exact Ideal.div_coe (by norm_num) d

/-- The two groupings of the powers give one polynomial. -/
theorem polyR_eq_polyK (y : EReal) : polyR y = polyK y := by
  unfold polyR polyK
  rw [mul_comm y ((y * y) * (y * y))]

/-- t = d² + 1 at a real distance is the real x² + 1. -/
theorem tee_coe (x : ℝ) : (x : EReal) * (x : EReal) + one = ((x * x + 1 : ℝ) : EReal) := by
  rw [one_val, ← EReal.coe_mul, ← EReal.coe_add]

theorem tee_pos (x : ℝ) : 0 < x * x + 1 := by nlinarith [mul_self_nonneg x]

/-- √t for the real t = x² + 1 > 0. -/
theorem sqrt_tee (x : ℝ) :
    Ideal.sqrt ((x * x + 1 : ℝ) : EReal) = ((Real.sqrt (x * x + 1) : ℝ) : EReal) := by
  rw [Ideal.sqrt_coe, if_neg (not_lt.mpr (tee_pos x).le)]

/-- t^(−1/2) for the real t = x² + 1 > 0. -/
theorem rsqrt_tee (x : ℝ) :
    Ideal.rsqrt ((x * x + 1 : ℝ) : EReal) = (((Real.sqrt (x * x + 1))⁻¹ : ℝ) : EReal) := by
  rw [Ideal.rsqrt_coe, if_neg (not_lt.mpr (tee_pos x).le), if_neg (tee_pos x).ne']

/-- 1/√t = t^(−1/2). -/
theorem one_div_sqrt_tee (x : ℝ) :
    Ideal.div one ((Real.sqrt (x * x + 1) : ℝ) : EReal) = (((Real.sqrt (x * x + 1))⁻¹ : ℝ) : EReal) := by
  have hs : Real.sqrt (x * x + 1) ≠ 0 := (Real.sqrt_pos.mpr (tee_pos x)).ne'
  rw [Ideal.div_coe hs, one_val, ← EReal.coe_mul, one_mul, one_div]

/-- √t = t · t^(−1/2). -/
theorem tee_mul_rsqrt (x : ℝ) :
    ((x * x + 1 : ℝ) : EReal) * (((Real.sqrt (x * x + 1))⁻¹ : ℝ) : EReal)
      = ((Real.sqrt (x * x + 1) : ℝ) : EReal) := by
  have hs : Real.sqrt (x * x + 1) ≠ 0 := (Real.sqrt_pos.mpr (tee_pos x)).ne'
  have h : (x * x + 1) * (Real.sqrt (x * x + 1))⁻¹ = Real.sqrt (x * x + 1) := by
    rw [mul_inv_eq_iff_eq_mul₀ hs]
    exact (Real.mul_self_sqrt (tee_pos x).le).symm
  rw [← EReal.coe_mul, h]

/-! ## The brackets agree at a finite distance -/

theorem swOffR_eq (d : EReal) : swOffR d = swOffK d := by
  unfold swOffR swOffK
  rw [div_two, polyR_eq_polyK]

theorem eOrdR_eq (c : EReal) (hc : c = ((1 / 100 : ℝ) : EReal)) (d : EReal) : eOrdR d = eOrdK c d := by
  unfold eOrdR eOrdK
  rw [div_hundred, hc]

theorem eShdR_eq (c : EReal) (hc : c = ((1 / 100 : ℝ) : EReal)) (x : ℝ) :
    eShdR (x : EReal) = eShdK c (x : EReal) := by
  unfold eShdR eShdK
  rw [tee_coe, sqrt_tee, rsqrt_tee, one_div_sqrt_tee, div_hundred, tee_mul_rsqrt, hc]

theorem mixR_eq (c : EReal) (hc : c = ((1 / 100 : ℝ) : EReal)) (x : ℝ) :
    mixR (x : EReal) = mixK c (x : EReal) := by
  unfold mixR mixK
  rw [swOffR_eq, eOrdR_eq c hc, eShdR_eq c hc]

/-! ## Real values: closed under the operations the pair term uses -/

/-- An extended real that is (the coercion of) a real number. -/
def IsReal (z : EReal) : Prop := ∃ r : ℝ, z = (r : EReal)

theorem isReal_coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.select (k : BitVec 1) {a b : EReal} (ha : IsReal a) (hb : IsReal b) :
    IsReal (Scalar.select k a b) := by
  unfold Scalar.select
  split_ifs
  · exact ha
  · exact hb

theorem isReal_one : IsReal one := ⟨1, one_val⟩
theorem isReal_half : IsReal half := ⟨_, half_val⟩
theorem isReal_six : IsReal six := ⟨_, six_val⟩
theorem isReal_ten : IsReal ten := ⟨_, ten_val⟩
theorem isReal_fifteen : IsReal fifteen := ⟨_, fifteen_val⟩
theorem isReal_fifth : IsReal fifth := fifth_real

theorem isReal_zero : IsReal zero := by
  refine ⟨0, ?_⟩
  simp [Ideal.ofBits, Ideal.ieee]

/-- The switch polynomial of a real is real. -/
theorem polyK_real {y : EReal} (hy : IsReal y) : IsReal (polyK y) := by
  unfold polyK
  exact ((isReal_one.sub (isReal_six.mul (((hy.mul hy).mul (hy.mul hy)).mul hy))).add
    (isReal_fifteen.mul ((hy.mul hy).mul (hy.mul hy)))).sub (isReal_ten.mul ((hy.mul hy).mul hy))

theorem swOffK_real (x : ℝ) : IsReal (swOffK (x : EReal)) := by
  unfold swOffK
  exact IsReal.select _ (polyK_real ((isReal_coe x).mul isReal_half)) isReal_zero

theorem eShdK_real (c : EReal) (hc : c = ((1 / 100 : ℝ) : EReal)) (x : ℝ) :
    IsReal (eShdK c (x : EReal)) := by
  have hcr : IsReal c := ⟨_, hc⟩
  unfold eShdK
  rw [tee_coe, rsqrt_tee]
  exact (((isReal_coe _).add (((isReal_coe _).mul (isReal_coe _)).mul hcr))).sub isReal_fifth

/-- Away from d = 0 the ordinary term is real. -/
theorem eOrdK_real (c : EReal) (hc : c = ((1 / 100 : ℝ) : EReal)) (x : ℝ) (hx : x ≠ 0) :
    IsReal (eOrdK c (x : EReal)) := by
  have hcr : IsReal c := ⟨_, hc⟩
  unfold eOrdK
  rw [Ideal.div_coe hx]
  exact ((isReal_one.mul (isReal_coe _)).add ((isReal_coe x).mul hcr)).sub isReal_fifth

/-- At d = 0 the switch is 1 (0 < 2, and the polynomial at 0 is 1). -/
theorem swOffK_zero : swOffK ((0 : ℝ) : EReal) = one := by
  have hlt : Ideal.cmp .olt ((0 : ℝ) : EReal) two = 1 := by
    rw [two_val]
    have : ((0 : ℝ) : EReal) < ((2 : ℝ) : EReal) := by exact_mod_cast (by norm_num : (0 : ℝ) < 2)
    simp [Ideal.cmp, this]
  unfold swOffK Scalar.select
  rw [if_pos hlt, EReal.coe_zero, zero_mul]
  unfold polyK
  simp only [mul_zero, zero_mul]
  rw [one_val, ← EReal.coe_zero, ← EReal.coe_sub, ← EReal.coe_add, ← EReal.coe_sub]
  norm_num

/-- The bracket is real at every finite distance: at d = 0 the infinite 1/d meets the factor 1 − σ(0) = 0. -/
theorem mixK_real (c : EReal) (hc : c = ((1 / 100 : ℝ) : EReal)) (x : ℝ) : IsReal (mixK c (x : EReal)) := by
  unfold mixK
  refine ((swOffK_real x).mul (eShdK_real c hc x)).add ?_
  by_cases hx : x = 0
  · subst hx
    rw [swOffK_zero, one_val, ← EReal.coe_sub, sub_self, EReal.coe_zero, zero_mul]
    exact ⟨0, EReal.coe_zero.symm⟩
  · exact (isReal_one.sub (swOffK_real x)).mul (eOrdK_real c hc x hx)

/-! ## The two agree, and the kernel's term is finite -/

/-- The zero word denotes 0. -/
theorem zero_eq : zero = 0 := by
  simp [Ideal.ofBits, Ideal.ieee]

/-- Half the Coulomb constant is a real number. -/
theorem ke_real : ∃ k : ℝ, ke = (k : EReal) := by
  simp [Ideal.ofBits, Ideal.ieee, -EReal.coe_mul]

/-- At a finite distance the reference's pair term is the kernel's, scaled by k · qi. -/
theorem pairR_eq (c : EReal) (hc : c = ((1 / 100 : ℝ) : EReal)) (x : ℝ) (qi qj : EReal) :
    pairR (x : EReal) qi qj = (ke * qi) * pairK c (x : EReal) qj := by
  unfold pairR pairK Scalar.select
  rw [mixR_eq c hc x]
  split_ifs
  · rw [mul_assoc (ke * qi) qj]
  · rw [zero_eq, mul_zero]

/-- At a finite distance and a finite charge the kernel's pair term is a real number. -/
theorem pairK_real (c : EReal) (hc : c = ((1 / 100 : ℝ) : EReal)) (x b : ℝ) :
    ∃ r : ℝ, pairK c (x : EReal) (b : EReal) = (r : EReal) := by
  unfold pairK
  exact IsReal.select _ ((isReal_coe b).mul (mixK_real c hc x)) isReal_zero

end Cert.PairTerm

end
-- ==== Proof.KernelBlocks.lean ====
/-
  What the kernel's one region leaves in its result array.

  The region's body is pointwise: the staging buffer of the result window holds, at every position y of a
  5000 × 128 block, the pair term K(d y, qj y) of the two input blocks.  The ten blocks tile the
  50000 × 128 array, each input block sits at the same rows as the result block, so the whole result array
  is the pair term of the two input arrays, index by index.
-/
import proofs.«420366_j24172075942131_2_alg».proof.Proof.Gen.KernelIdeal.Frame
import proofs.«420366_j24172075942131_2_alg».proof.Proof.PairTerm
import Idealize.ShloMosaic.PureOps.IdealRules
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem
open Cert.KernelIdeal Cert.KernelIdeal.Gen
open Idealize.ShloMosaic.Pipeline (Dat Cfg Window)

/-- The constant the kernel names 1/100, at the ideal instance. -/
abbrev cNamed : EReal := Named.named (F := Ideal) Cert.KernelIdeal.κ "inv_100" (φ := .f32) 0x3C23D70A#32

theorem cNamed_eq : cNamed = ((1 / 100 : ℝ) : EReal) :=
  IdealRules.named_const.ideal_named_scalar _ _ _ _ rfl

theorem hz : (![0, 0] : Fin 2 → Nat) = fun _ => 0 := funext fun a => by fin_cases a <;> rfl

/-- The body's one store, read at a position of the block: the pair term of the two loaded blocks there. -/
theorem out_eq (x0 x1 : Vec Ideal S5000x128 .f32) :
    out0_2 (F := Ideal) x0 x1 = fun y => Cert.PairTerm.pairK cNamed (x0 y) (x1 y) := by
  unfold out0_2
  rw [View.canon_unit_zero hz]
  simp only [View.ld_unit_zero (S := S5000x128) hz]
  have e2 : k0_pay2 (F := Ideal) x0 = x0 := shapeCast_self x0 _
  have e3 : k0_pay3 (F := Ideal) x1 = x1 := shapeCast_self x1 _
  rw [e3]
  unfold k0_pay7 k0_pay6 k0_pay5 k0_pay4 k0_pay1
  rw [e2]
  rfl

variable (m : (ℓ : Loc nD τ sig) → Buf (Elt Ideal) ℓ)

/-- The pair term of a whole array of distances and a whole array of partner charges, index by index. -/
abbrev pairArr (dA qA : S50000x128.Idx → EReal) : S50000x128.Idx → EReal :=
  fun i => Cert.PairTerm.pairK cNamed (dA i) (qA i)

/-- The three windows' block index maps agree at every grid point, and the result's block row is one of the ten. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 9 ∧ win0_2.index t (1 : Fin 2) = 0 :=
  (by decide +kernel : ∀ t : Fin grid0.N, _)

/-- Each of the ten row blocks is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the pair term of the two input arrays: the input blocks
    are read at the rows the result block covers. -/
theorem flushed_eq (c : Dev nD) (t : Fin cfg0.N) :
    (dats m 0 c).flushed 2 t
      = ((cfg0.win 2).blk t).view.read (Elt Ideal) (pairArr (V m c main_v7) (V m c main_v8)) := by
  show (cfg0.win 2).cut (grid0.coords t) ((dats m 0 c).after 2 t) = _
  rw [after0_2, out_eq]
  obtain ⟨e0, e1, e2, e3, e4, e5⟩ := idx_facts t
  funext j
  show Cert.PairTerm.pairK cNamed (V m c main_v7 (((cfg0.win 0).blk t).view.emb j)) (V m c main_v8 (((cfg0.win 1).blk t).view.emb j))
    = Cert.PairTerm.pairK cNamed (V m c main_v7 (((cfg0.win 2).blk t).view.emb j)) (V m c main_v8 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v9).slice (win0_2.rect t)).set ↔ _
  rw [View.set_slice_whole, Rect.mem_set_unit]
  exact Iff.rfl

/-- The ten blocks cover the array: row r lies in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the pair term of the two input arrays as the region found them. -/
theorem final (c : Dev nD) :
    (dats m 0 c).arrAt 2 cfg0.N = pairArr (V m c main_v7) (V m c main_v8) :=
  (dats m 0 c).arrAt_eq_of_cover 2 _ (fun t _ => flushed_eq m c t) cover

end Cert.KernelIdeal.Blocks

end
-- ==== Proof.LibScatterTake.lean ====
/-
  The take-shaped scatter: where an update lands.

  jax's `x.at[idx].add(v)` over a rank-1 operand of length N with n scalar updates prints as a
  `stablehlo.scatter` whose scatter indices are the [n × 1] column of positions, the operand's one axis
  inserted and start-indexed, no window axes, the index vector on axis 1.  Update `j` lands on operand
  element `i` only if its start index, read signed and NOT clamped, is `i`'s coordinate: the result index
  is start plus window coordinate, and with no window axis the window coordinate is 0.
-/
import Idealize.ShloMosaic.PureOps.Dims
import Idealize.ShloMosaic.PureOps.Contract
import Idealize.ShloMosaic.PureOps.Ideal
import Idealize.ShloMosaic.Lib.StableHlo.Predicate

namespace Idealize.ShloMosaic.ScatterTake

open Idealize.ShloMosaic Idealize.ShloMosaic.StableHlo.Predicate

/-- If update `j` of a take-shaped scatter lands on element `i`, then the start index of `j` — row `j` of the
    column of positions, read as a signed integer — is `i`'s coordinate. -/
theorem toInt_of_resultIdx_eq_some {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (j : (⟨1, ![n]⟩ : Shape).Idx) (i : (⟨1, ![N]⟩ : Shape).Idx)
    (h : d.resultIdx? j idx = some i) : (idx (ixP (j 0))).toInt = (((i 0).val : Nat) : Int) := by
  have hm : (0 : Fin 1) ∈ d.scatterDimsToOperandDims := by rw [hsd]; exact List.mem_singleton.mpr rfl
  have hk : (0 : Fin 1) ∉ d.sKept := by
    show (0 : Fin 1) ∉ Shape.kept _ d.insertedWindowDims
    rw [hiw]; simp [Shape.kept]
  have hw : d.window j 0 = 0 := by unfold ScatterDims.window; rw [dif_neg hk]
  have hs : d.start j idx 0 = (idx (ixP (j 0))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  unfold ScatterDims.resultIdx? at h
  split at h
  · rename_i hall
    have h0 := congrFun (Option.some.inj h) 0
    have hv : (d.start j idx 0 + (d.window j 0 : Int)).toNat = (i 0).val := congrArg Fin.val h0
    have hnn := (hall 0).1
    rw [hw, hs] at hv hnn
    simp only [Nat.cast_zero, add_zero] at hv hnn
    omega
  · exact absurd h (by simp)

/-- The updates that land on operand element `i`: those whose result index is `i`. -/
def landSet {s si su : Shape} {w : Nat} (d : ScatterDims s si su) (idx : IVec si w) (i : s.Idx) : Finset su.Idx :=
  Finset.univ.filter (fun j => d.resultIdx? j idx = some i)

theorem mem_landSet {s si su : Shape} {w : Nat} (d : ScatterDims s si su) (idx : IVec si w) (i : s.Idx)
    (j : su.Idx) : j ∈ landSet d idx i ↔ d.resultIdx? j idx = some i := by
  unfold landSet
  simp only [Finset.mem_filter, Finset.mem_univ, true_and]

/-- The host's accumulating float scatter at the ideal instance, read at an element: the operand's element plus
    the sum of the updates that land on it. -/
theorem scatterAdd_apply {s si su : Shape} {φ : FTy} {w : Nat} (d : ScatterDims s si su)
    (x : s.Idx → EReal) (idx : IVec si w) (upd : su.Idx → EReal) (i : s.Idx) :
    Host.scatterAdd (F := Ideal) (φ := φ) d x idx upd i = x i + ∑ j ∈ landSet d idx i, upd j := rfl

end Idealize.ShloMosaic.ScatterTake
-- ==== Proof.KernelTail.lean ====
/-
  The kernel's whole program, read as one function of its four arguments.

  Before the region the host gathers the partner charges qj = q[idx_j] (negative positions wrapped by the
  table's length, then the take clamps) and lays distances and partner charges out as 50000 × 128 arrays.
  The region writes the pair term of the two, index by index.  After the region the host flattens that
  array again — a reshape there and back is the identity, and the pair term is pointwise, so the flat
  array holds K(d j, qj j) at pair j —, adds the pair terms into the owning atoms' buckets (an accumulating
  scatter from zero by idx_i), and multiplies bucket a by k · q a.
-/
import proofs.«420366_j24172075942131_2_alg».proof.Proof.KernelBlocks
import proofs.«420366_j24172075942131_2_alg».proof.Proof.LibScatterTake
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Blocks

/-- Positions as jnp indexing wraps them: a negative position counts from the table's end. -/
def wrapIdx (raw : IVec S6400000 32) : IVec S6400000 32 :=
  select (cmpi .slt raw (broadcastInDim S6400000 ![] bcast_S_S6400000 (constantI S_ 32 0#32)))
    (addi raw (broadcastInDim S6400000 ![] bcast_S_S6400000 (constantI S_ 32 100000#32))) raw

/-- The charges taken at the wrapped positions: q[idx]. -/
def takeQ (q : FVec Ideal S100000 .f32) (raw : IVec S6400000 32) : FVec Ideal S6400000 .f32 :=
  Host.gather gather_S100000_S6400000x1_S6400000_n_0_n_n_0_1_1 q
    (broadcastInDim S6400000x1 ![0] bcast_S6400000_S6400000x1_0 (wrapIdx raw))

/-- The kernel's result: bucket a holds (k · q a) · (0 + the sum of K(d j, q[idx_j] j) over the pairs j that
    idx_i sends to a). -/
def kres (q : FVec Ideal S100000 .f32) (d : FVec Ideal S6400000 .f32) (ii ij : IVec S6400000 32) :
    FVec Ideal S100000 .f32 :=
  mulf (mulf (broadcastInDim S100000 ![] bcast_S_S100000 (constant S_ .f32 0x40E664F3#32)) q)
    (Host.scatterAdd scatter_S100000_S6400000x1_S6400000_n_0_0_1
      (broadcastInDim S100000 ![] bcast_S_S100000 (constant S_ .f32 0x00000000#32))
      (broadcastInDim S6400000x1 ![0] bcast_S6400000_S6400000x1_0 ii)
      (fun j => Cert.PairTerm.pairK cNamed (d j) (takeQ q ij j)))

/-- The kernel's result at bucket `i`: (k · q i) times zero plus the sum of the pair terms landing there. -/
theorem kres_apply (q : FVec Ideal S100000 .f32) (d : FVec Ideal S6400000 .f32) (ii ij : IVec S6400000 32)
    (i : S100000.Idx) :
    kres q d ii ij i = (Cert.PairTerm.ke * q i) * (Cert.PairTerm.zero
      + ∑ j ∈ ScatterTake.landSet scatter_S100000_S6400000x1_S6400000_n_0_0_1
          (broadcastInDim S6400000x1 ![0] bcast_S6400000_S6400000x1_0 ii) i,
        Cert.PairTerm.pairK cNamed (d j) (takeQ q ij j)) := by
  unfold kres
  rw [ValueIdx.mulf_apply, ValueIdx.mulf_apply, ScatterTake.scatterAdd_apply]
  simp only [StableHlo.Predicate.bcast_scalar bcast_S_S100000 (by decide : 0 < S_.numel), ValueIdx.constant_apply]

variable (m : (ℓ : Loc nD τ sig) → Buf (Elt Ideal) ℓ) (ρ : Dev nD → PrngReg)

/-- The region finds the distances laid out as rows of 128. -/
theorem V_v7 (c : Dev nD) : (V m c main_v7 : S50000x128.Idx → EReal)
    = shapeCast S50000x128 (m ((c : Thread nD τ).loc main_arg1)) shapeCasts_S6400000_S50000x128 := by
  show StableHlo.after hostOps0 (fun b => m (c, b)) (Proc.devRef .tc main_v7) = _
  after_results; rfl

/-- The region finds the gathered partner charges laid out the same way. -/
theorem V_v8 (c : Dev nD) : (V m c main_v8 : S50000x128.Idx → EReal)
    = shapeCast S50000x128 (takeQ (m ((c : Thread nD τ).loc main_arg0)) (m ((c : Thread nD τ).loc main_arg3)))
        shapeCasts_S6400000_S50000x128 := by
  show StableHlo.after hostOps0 (fun b => m (c, b)) (Proc.devRef .tc main_v8) = _
  after_results; rfl

/-- Flattening the pair term of two arrays that were laid out from flat ones gives the pair term of the flat
    ones: the two reshapes cancel under a pointwise function. -/
theorem reshape_pair (d q : S6400000.Idx → EReal) :
    shapeCast S6400000 (pairArr (shapeCast S50000x128 d shapeCasts_S6400000_S50000x128)
        (shapeCast S50000x128 q shapeCasts_S6400000_S50000x128)) shapeCasts_S50000x128_S6400000
      = fun j => Cert.PairTerm.pairK cNamed (d j) (q j) := by
  funext j
  have ed := congrFun (shapeCast_shapeCast d shapeCasts_S6400000_S50000x128 shapeCasts_S50000x128_S6400000) j
  have eq := congrFun (shapeCast_shapeCast q shapeCasts_S6400000_S50000x128 shapeCasts_S50000x128_S6400000) j
  show Cert.PairTerm.pairK cNamed
      (shapeCast S6400000 (shapeCast S50000x128 d shapeCasts_S6400000_S50000x128) shapeCasts_S50000x128_S6400000 j)
      (shapeCast S6400000 (shapeCast S50000x128 q shapeCasts_S6400000_S50000x128) shapeCasts_S50000x128_S6400000 j) = _
  rw [ed, eq]

/-- What the host operations after the region leave in the result buffer. -/
theorem tail_eq (c : Dev nD) :
    (Pipeline.afterTail₀ cfgs (dats m) 0 (V0 m) [hostOps1] c main_v16 : S100000.Idx → EReal)
      = kres (m ((c : Thread nD τ).loc main_arg0)) (m ((c : Thread nD τ).loc main_arg1))
          (m ((c : Thread nD τ).loc main_arg2)) (m ((c : Thread nD τ).loc main_arg3)) := by
  have e9 : Pipeline.withArrays (cfgs 0).spec c (V0 m c) (fun w => (dats m 0 c).arrAt w (cfgs 0).N)
      (Proc.devRef .tc main_v9) = pairArr (V m c main_v7) (V m c main_v8) :=
    (Pipeline.withArrays_arr spec0 launch0.win.arr_inj c _ _ 2).trans (final m c)
  have e0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have e2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  unfold Pipeline.afterTail₀
  show StableHlo.after hostOps1 _ (Proc.devRef .tc main_v16) = _
  after_results
  show mulf (mulf (broadcastInDim S100000 ![] bcast_S_S100000 (constant S_ .f32 0x40E664F3#32))
        (Pipeline.withArrays (cfgs 0).spec c (V0 m c) (fun w => (dats m 0 c).arrAt w (cfgs 0).N) (Proc.devRef .tc main_arg0)))
      (Host.scatterAdd (F := Ideal) scatter_S100000_S6400000x1_S6400000_n_0_0_1
        (broadcastInDim S100000 ![] bcast_S_S100000 (constant S_ .f32 0x00000000#32))
        (broadcastInDim S6400000x1 ![0] bcast_S6400000_S6400000x1_0
          (Pipeline.withArrays (cfgs 0).spec c (V0 m c) (fun w => (dats m 0 c).arrAt w (cfgs 0).N) (Proc.devRef .tc main_arg2)))
        (shapeCast S6400000
          (Pipeline.withArrays (cfgs 0).spec c (V0 m c) (fun w => (dats m 0 c).arrAt w (cfgs 0).N) (Proc.devRef .tc main_v9)
            : FVec Ideal S50000x128 .f32)
          shapeCasts_S50000x128_S6400000)) = _
  rw [e9, e0, e2, V_v7, V_v8, reshape_pair]
  rfl

/-- The kernel's run with its result named: every weakly fair execution ends with the result buffer at `kres` of the
    argument arrays and the arguments unchanged. -/
theorem run : θ_run defs (onTc (τ := τ) (main (F := Ideal))) ⟨m, fun _ => 0, ρ⟩ (fun r => ∀ c : Dev nD,
      r.2.mem ((c.tc : Thread nD τ).loc main_v16)
        = kres (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.SumLaw.lean ====
/-
  Factoring a real scalar out of a finite sum of real numbers, on the extended reals.

  Multiplication does not distribute over addition on all of the extended reals (a negative factor
  times ⊤ + ⊥), but it does when every summand is a real number and so is the factor: then both sides
  are the coercion of one real sum.
-/
import Idealize.ShloMosaic.PureOps.Ideal

noncomputable section

namespace Cert.SumLaw

/-- The coercion of a finite real sum is the sum of the coercions. -/
theorem coe_sum {ι : Type} (s : Finset ι) (f : ι → ℝ) :
    ((∑ j ∈ s, f j : ℝ) : EReal) = ∑ j ∈ s, (f j : EReal) := by
  induction s using Finset.cons_induction with
  | empty => simp
  | cons a s ha ih => rw [Finset.sum_cons, Finset.sum_cons, EReal.coe_add, ih]

/-- If k and every K j (j ∈ s) are real and R j = k · K j on s, then 0 + ∑ R = k · (0 + ∑ K). -/
theorem sum_factor {ι : Type} (s : Finset ι) (k : EReal) (K R : ι → EReal)
    (hk : ∃ r : ℝ, k = (r : EReal)) (hK : ∀ j ∈ s, ∃ r : ℝ, K j = (r : EReal))
    (hR : ∀ j ∈ s, R j = k * K j) :
    (0 : EReal) + ∑ j ∈ s, R j = k * ((0 : EReal) + ∑ j ∈ s, K j) := by
  obtain ⟨r, rfl⟩ := hk
  choose! f hf using hK
  have hKs : ∑ j ∈ s, K j = ((∑ j ∈ s, f j : ℝ) : EReal) := by
    rw [Finset.sum_congr rfl hf, coe_sum]
  have hRs : ∑ j ∈ s, R j = ((∑ j ∈ s, r * f j : ℝ) : EReal) := by
    rw [coe_sum]
    refine Finset.sum_congr rfl fun j hj => ?_
    rw [hR j hj, hf j hj, EReal.coe_mul]
  rw [hKs, hRs, zero_add, zero_add, ← EReal.coe_mul, Finset.mul_sum]

end Cert.SumLaw

end
-- ==== Proof.RefBridge.lean ====
/-
  The reference's result is the kernel's.

  The reference scatters, from zero and by idx_i, the pair energies R(d j, q[idx_i] j, q[idx_j] j).  An update j
  lands in bucket i only if its position idx_i j, read signed, is i's coordinate; that position is then
  non-negative and inside the table, so jnp's wrap of negative positions leaves it alone, the take's clamp leaves
  it alone, and the owning charge the reference gathered for pair j is q i.  At a finite distance
  R(d, qi, qj) = (k · qi) · K(d, qj), so every update landing in bucket i is (k · q i) times the kernel's, and
  since k, q i and every K(d j, qj j) are real numbers the common factor comes out of the sum:
      0 + ∑ (k · q i) · K_j  =  (k · q i) · (0 + ∑ K_j),
  which is what the kernel computes.
-/
import proofs.«420366_j24172075942131_2_alg».proof.Proof.Gen.ReferenceIdeal.Read
import proofs.«420366_j24172075942131_2_alg».proof.Proof.KernelTail
import proofs.«420366_j24172075942131_2_alg».proof.Proof.PairTerm
import proofs.«420366_j24172075942131_2_alg».proof.Proof.SumLaw
import proofs.«420366_j24172075942131_2_alg».proof.Proof.LibScatterTake
import Idealize.ShloMosaic.Lib.StableHlo.Predicate
import Idealize.ShloMosaic.Lib.ValueIdx

set_option maxRecDepth 16384

noncomputable section

namespace Cert.Bridge

open Idealize.ShloMosaic Idealize.ShloMosaic.StableHlo.Predicate
open Cert.ReferenceIdeal Cert.ReferenceIdeal.Read

/-- The reference's update for pair `j` is its pair energy of the distance and the two gathered charges. -/
theorem upd_eq (x0 : FVec Ideal S100000 .f32) (x1 : FVec Ideal S6400000 .f32) (x2 x3 : IVec S6400000 32)
    (j : S6400000.Idx) :
    val_main_v67 (F := Ideal) x0 x1 x2 x3 j
      = Cert.PairTerm.pairR (x1 j) (val_main_v6 (F := Ideal) x0 x2 j) (val_main_v13 (F := Ideal) x0 x3 j) := by
  simp only [val_main_v14_apply, val_main_cst_apply, val_main_v15_apply, val_main_v16_apply, val_main_v17_apply, val_main_cst_3_apply, val_main_v18_apply, val_main_v19_apply, val_main_v20_apply, val_main_v21_apply, val_main_v22_apply, val_main_cst_4_apply, val_main_v23_apply, val_main_v24_apply, val_main_cst_5_apply, val_main_v25_apply, val_main_v26_apply, val_main_v27_apply, val_main_v28_apply, val_main_cst_6_apply, val_main_v29_apply, val_main_v30_apply, val_main_v31_apply, val_main_v32_apply, val_main_v33_apply, val_main_cst_7_apply, val_main_v34_apply, val_main_v35_apply, val_main_v36_apply, val_main_cst_8_apply, val_main_v37_apply, val_main_v38_apply, val_main_cst_9_apply, val_main_v39_apply, val_main_v40_apply, val_main_cst_10_apply, val_main_v41_apply, val_main_v42_apply, val_main_cst_11_apply, val_main_v43_apply, val_main_v44_apply, val_main_cst_12_apply, val_main_v45_apply, val_main_v46_apply, val_main_v47_apply, val_main_cst_13_apply, val_main_v48_apply, val_main_v49_apply, val_main_cst_14_apply, val_main_v50_apply, val_main_v51_apply, val_main_cst_15_apply, val_main_v52_apply, val_main_v53_apply, val_main_v54_apply, val_main_cst_16_apply, val_main_v55_apply, val_main_v56_apply, val_main_cst_17_apply, val_main_v57_apply, val_main_v58_apply, val_main_v59_apply, val_main_v60_apply, val_main_v61_apply, val_main_v62_apply, val_main_v63_apply, val_main_cst_18_apply, val_main_v64_apply, val_main_v65_apply, val_main_cst_19_apply, val_main_v66_apply, val_main_v67_apply]
  rfl

/-- Row `j 0` of a column of positions is position `j`. -/
theorem col_row (j : S6400000.Idx) : (fun a => match a with
    | ⟨0, _⟩ => ⟨((ixP (j 0) : S6400000x1.Idx) 0).val, ((ixP (j 0) : S6400000x1.Idx) 0).isLt⟩ : S6400000.Idx) = j := by
  funext a
  have ha : a = 0 := Subsingleton.elim _ _
  subst ha
  exact Fin.ext rfl

/-- If update `j` lands in bucket `i`, the owning charge gathered for pair `j` is `q i`. -/
theorem owner_eq (x0 : FVec Ideal S100000 .f32) (x2 : IVec S6400000 32) (j : S6400000.Idx) (i : S100000.Idx)
    (h : scatter_S100000_S6400000x1_S6400000_n_0_0_1.resultIdx? j (val_main_v69 (F := Ideal) x2) = some i) :
    val_main_v6 (F := Ideal) x0 x2 j = x0 i := by
  have hI := ScatterTake.toInt_of_resultIdx_eq_some scatter_S100000_S6400000x1_S6400000_n_0_0_1 rfl rfl rfl
    (val_main_v69 (F := Ideal) x2) j i h
  have hj69 : idx_main_v69 (ixP (j 0)) = j := col_row j
  have hj5 : idx_main_v5 (ixP (j 0)) = j := col_row j
  rw [val_main_v69_apply, hj69] at hI
  have hi : (i 0).val < 100000 := (i 0).isLt
  -- the position is a small non-negative word
  have hnat : (x2 j).toNat = (i 0).val := by
    have h1 := BitVec.toInt_eq_toNat_cond (x2 j)
    have h2 : (x2 j).toNat < 2 ^ 32 := (x2 j).isLt
    rw [h1] at hI
    split at hI <;> omega
  have hslt : IntOp.cmpi .slt (x2 j) 0#32 = 0#1 := by
    apply ValueIdx.eq_zero_of_ne_one
    intro hc
    have := (slt_iff_toNat (a := x2 j) (b := 0#32) (by omega) (by decide)).mp hc
    simp at this
  have hw : val_main_v4 (F := Ideal) x2 j = x2 j := by
    rw [val_main_v4_apply, val_main_v1_apply, val_main_v0_apply, val_main_c_apply, hslt]
    exact ValueIdx.select_zero _ _
  have h5 : val_main_v5 (F := Ideal) x2 (ixP (j 0)) = x2 j := by
    rw [val_main_v5_apply, hj5, hw]
  have hg := gather_take gather_S100000_S6400000x1_S6400000_n_0_n_n_0_1_1 rfl rfl rfl rfl x0
    (val_main_v5 (F := Ideal) x2) (j 0) (by decide : 0 < 100000)
  have hjj : j = Shape.Idx.ofFin (j 0) := Shape.Idx.eq_ofFin j
  show Host.gather gather_S100000_S6400000x1_S6400000_n_0_n_n_0_1_1 x0 (val_main_v5 (F := Ideal) x2) j = x0 i
  refine (congrArg (Host.gather gather_S100000_S6400000x1_S6400000_n_0_n_n_0_1_1 x0 (val_main_v5 (F := Ideal) x2)) hjj).trans
    (hg.trans ?_)
  refine congrArg x0 ?_
  refine Eq.trans ?_ (Shape.Idx.eq_ofFin i).symm
  refine congrArg Shape.Idx.ofFin (Fin.ext ?_)
  show min (val_main_v5 (F := Ideal) x2 (ixP (j 0))).toInt.toNat (100000 - 1) = (i 0).val
  rw [h5, toInt_eq_toNat_of_lt (by omega), hnat]
  simp only [Int.toNat_natCast]
  omega

/-- The reference's result at bucket `i`: zero plus the sum of the updates landing there. -/
theorem ref_apply (x0 : FVec Ideal S100000 .f32) (x1 : FVec Ideal S6400000 .f32) (x2 x3 : IVec S6400000 32)
    (i : S100000.Idx) :
    val_main_v70 (F := Ideal) x0 x1 x2 x3 i = Cert.PairTerm.zero
      + ∑ j ∈ ScatterTake.landSet scatter_S100000_S6400000x1_S6400000_n_0_0_1 (val_main_v69 (F := Ideal) x2) i,
        val_main_v67 (F := Ideal) x0 x1 x2 x3 j := by
  unfold val_main_v70
  rw [ScatterTake.scatterAdd_apply, val_main_v68_apply, val_main_cst_20_apply, Ideal.ofBits_def]

/-- The reference's result is the kernel's, when every charge and every distance is a real number. -/
theorem ref_eq (x0 : FVec Ideal S100000 .f32) (x1 : FVec Ideal S6400000 .f32) (x2 x3 : IVec S6400000 32)
    (h0 : ∀ i, ∃ r : ℝ, x0 i = (r : EReal)) (h1 : ∀ j, ∃ r : ℝ, x1 j = (r : EReal)) :
    val_main_v70 (F := Ideal) x0 x1 x2 x3 = Cert.KernelIdeal.Tail.kres x0 x1 x2 x3 := by
  funext i
  -- the two programs' scatters have the same dimension numbers and the same column of positions
  have hs : ScatterTake.landSet Cert.KernelIdeal.scatter_S100000_S6400000x1_S6400000_n_0_0_1
        (broadcastInDim Cert.KernelIdeal.S6400000x1 ![0] Cert.KernelIdeal.Facts₀.bcast_S6400000_S6400000x1_0 x2) i
      = ScatterTake.landSet scatter_S100000_S6400000x1_S6400000_n_0_0_1 (val_main_v69 (F := Ideal) x2) i := rfl
  rw [ref_apply, Cert.KernelIdeal.Tail.kres_apply, hs, Cert.PairTerm.zero_eq]
  obtain ⟨kk, hkk⟩ := Cert.PairTerm.ke_real
  obtain ⟨q, hq⟩ := h0 i
  refine Cert.SumLaw.sum_factor _ (Cert.PairTerm.ke * x0 i)
    (fun j => Cert.PairTerm.pairK Cert.KernelIdeal.Blocks.cNamed (x1 j) (Cert.KernelIdeal.Tail.takeQ x0 x3 j))
    (fun j => val_main_v67 (F := Ideal) x0 x1 x2 x3 j)
    ⟨kk * q, by rw [hkk, hq, EReal.coe_mul]⟩ ?_ ?_
  · -- every kernel term is real: a finite distance, and the partner charge is some entry of the charges
    intro j _
    obtain ⟨x, hx⟩ := h1 j
    obtain ⟨b, hb⟩ := h0 (Cert.KernelIdeal.gather_S100000_S6400000x1_S6400000_n_0_n_n_0_1_1.operandIdx j
      (broadcastInDim Cert.KernelIdeal.S6400000x1 ![0] Cert.KernelIdeal.Facts₀.bcast_S6400000_S6400000x1_0
        (Cert.KernelIdeal.Tail.wrapIdx x3)))
    have hb' : Cert.KernelIdeal.Tail.takeQ x0 x3 j = (b : EReal) := hb
    show ∃ r : ℝ, Cert.PairTerm.pairK Cert.KernelIdeal.Blocks.cNamed (x1 j) (Cert.KernelIdeal.Tail.takeQ x0 x3 j) = (r : EReal)
    rw [hx, hb']
    exact Cert.PairTerm.pairK_real _ Cert.KernelIdeal.Blocks.cNamed_eq x b
  · -- every update landing in bucket i is (k · q i) times the kernel's term
    intro j hj
    have hres := (ScatterTake.mem_landSet _ _ _ _).mp hj
    obtain ⟨x, hx⟩ := h1 j
    show val_main_v67 (F := Ideal) x0 x1 x2 x3 j
      = (Cert.PairTerm.ke * x0 i) * Cert.PairTerm.pairK Cert.KernelIdeal.Blocks.cNamed (x1 j) (Cert.KernelIdeal.Tail.takeQ x0 x3 j)
    rw [upd_eq, owner_eq x0 x2 j i hres, hx,
      Cert.PairTerm.pairR_eq Cert.KernelIdeal.Blocks.cNamed Cert.KernelIdeal.Blocks.cNamed_eq x]
    rfl

end Cert.Bridge

end
-- ==== Proof.Finite.lean ====
/-
  The precondition, decoded: every charge and every distance is a real number.

  The printed predicate is the conjunction of two `all`-reductions of the element test |x| < +∞, one over
  the charges and one over the distances.  It is all ones exactly when every element passes the test, and an
  extended real whose absolute value is below +∞ is neither +∞ nor −∞: it is (the coercion of) a real.
-/
import proofs.«420366_j24172075942131_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The word the predicate compares against denotes +∞. -/
theorem inf_word : Ideal.ofBits .f32 0x7F800000#32 = (⊤ : EReal) := by
  simp [Ideal.ofBits, Ideal.ieee]

/-- An extended real whose absolute value max x (−x) tests strictly below +∞ is a real number:
    at −∞ and at +∞ the maximum is +∞, which is not below itself. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have h' : BitVec.ofBool (decide (max x (-x) < ⊤)) = 1#1 := h
    rw [decide_eq_false hn] at h'
    exact absurd h' (by decide)
  induction x using EReal.rec with
  | bot => simp at hlt
  | coe r => exact ⟨r, rfl⟩
  | top => simp at hlt

/-- The scalar shape has one index. -/
instance subsingleton_scalar_idx : Subsingleton Cert.Pre_finite_inputs.S_.Idx :=
  ⟨fun _ _ => funext fun d => d.elim0⟩

/-- If the printed precondition holds of the four argument arrays at the ideal instance, then every entry of the
    charges `x0` and of the distances `x1` is a real number. -/
theorem real_of_pre (x0 : FVec Ideal Cert.Pre_finite_inputs.S100000 .f32)
    (x1 : FVec Ideal Cert.Pre_finite_inputs.S6400000 .f32)
    (x2 x3 : IVec Cert.Pre_finite_inputs.S6400000 32)
    (h : Cert.Pre_finite_inputs.fn (F := Ideal) x0 x1 x2 x3 = fun _ => 1#1) :
    (∀ i, ∃ r : ℝ, x0 i = (r : EReal)) ∧ (∀ j, ∃ r : ℝ, x1 j = (r : EReal)) := by
  have h0 := congrFun h ValueIdx.ix0
  unfold Cert.Pre_finite_inputs.fn at h0
  dsimp only at h0
  obtain ⟨h1, h2⟩ := IntOp.andi_eq_one.1 h0
  refine ⟨fun i => real_of_abs_lt_inf (x0 i) ?_, fun j => real_of_abs_lt_inf (x1 j) ?_⟩
  · exact Host.reduce_andi_all _ _ _ _ _ h1 i
  · exact Host.reduce_andi_all _ _ _ _ _ h2 j

end Cert.Finite

end
-- ==== Proof.lean ====
/-
  Shielded electrostatics by pairs: the kernel against its reference, over the extended reals.

  For 6,400,000 pairs (atom idx_i, partner idx_j, distance d) over 100,000 charges q, the reference sums into
  each atom a the energies k · q[idx_i] · q[idx_j] · f(d) of the pairs it owns, where
  f(d) = σ(d) · E_shd(d) + (1 − σ(d)) · E_ord(d) is switched off beyond the cutoff 10.  The kernel computes the
  per-pair part q[idx_j] · f(d) in one pointwise region over 50000 × 128 blocks, sums those into the owning atoms,
  and only then multiplies atom a's sum by k · q[a].

  The two agree because (i) a pair lands in bucket a exactly when idx_i, read signed, is a, and then the owning
  charge the reference gathered is q[a]; (ii) the per-pair brackets are one extended real at every finite
  distance (division by 2 and by 100 against products with 1/2 and the named 1/100; 1/√t and √t against
  t^(−1/2) and t · t^(−1/2) for t = d² + 1 ≥ 1); (iii) every summand is a real number when charges and distances
  are finite — the one infinite intermediate, 1/d at d = 0, meets the factor 1 − σ(0) = 0 —, so the common real
  factor k · q[a] comes out of the sum.  Finiteness of the inputs is the stated precondition, and it is used:
  distributivity fails on the extended reals at opposite infinities.

  The three frames are the generated ones (the reference's is its generated run with the result dropped); the
  idealization's two ledger entries are the named constant 1/100 at its two sites.
-/
import proofs.«420366_j24172075942131_2_alg».proof.Defs
import proofs.«420366_j24172075942131_2_alg».proof.Proof.Gen.Kernel
import proofs.«420366_j24172075942131_2_alg».proof.Proof.Gen.Kernel.Skeleton
import proofs.«420366_j24172075942131_2_alg».proof.Proof.Gen.Kernel.Launch
import proofs.«420366_j24172075942131_2_alg».proof.Proof.Gen.Kernel.Points
import proofs.«420366_j24172075942131_2_alg».proof.Proof.Gen.Kernel.Frame
import proofs.«420366_j24172075942131_2_alg».proof.Proof.Gen.KernelIdeal
import proofs.«420366_j24172075942131_2_alg».proof.Proof.Gen.KernelIdeal.Skeleton
import proofs.«420366_j24172075942131_2_alg».proof.Proof.Gen.KernelIdeal.Launch
import proofs.«420366_j24172075942131_2_alg».proof.Proof.Gen.KernelIdeal.Points
import proofs.«420366_j24172075942131_2_alg».proof.Proof.Gen.KernelIdeal.Frame
import proofs.«420366_j24172075942131_2_alg».proof.Proof.Gen.ReferenceIdeal
import proofs.«420366_j24172075942131_2_alg».proof.Proof.Gen.Pre_finite_inputs
import proofs.«420366_j24172075942131_2_alg».proof.Proof.Gen.ReferenceIdeal.Run
import proofs.«420366_j24172075942131_2_alg».proof.Proof.Gen.ReferenceIdeal.Read
import proofs.«420366_j24172075942131_2_alg».proof.Proof.KernelTail
import proofs.«420366_j24172075942131_2_alg».proof.Proof.RefBridge
import proofs.«420366_j24172075942131_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's two entries: the table gives "inv_100" the value 1/100, and the printed constant is that value at
    the ideal instance, at both sites. -/
theorem preserves : Cert.preserves_Kernel_KernelIdeal :=
  ⟨IdealRules.named_const.statement Cert.KernelIdeal.κ "inv_100" .f32 0x3C23D70A#32 ((1 / 100 : ℝ) : EReal) rfl,
    IdealRules.named_const.statement Cert.KernelIdeal.κ "inv_100" .f32 0x3C23D70A#32 ((1 / 100 : ℝ) : EReal) rfl⟩

/-- Both programs end with the kernel's function of the arguments in their result buffers: the kernel by its run
    read through the region and the host operations around it, the reference by its run, the agreement of the
    arguments, and the factoring of k · q[a] out of bucket a's sum of real pair terms. -/
theorem algebraic : Cert.algebraic_KernelIdeal_ReferenceIdeal := by
  intro m ρ m' ρ' hpre hagree
  refine ⟨fun c => Cert.KernelIdeal.Tail.kres
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2]
  obtain ⟨hq, hd⟩ := Cert.Finite.real_of_pre _ _ _ _ (hpre c)
  exact Cert.Bridge.ref_eq _ _ _ _ hq hd

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
